-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x64x128 : Shape := ⟨3, ![4096, 64, 128]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x64x128 : S_.BroadcastsInDim S4096x64x128 (![] : Fin 0 → Fin S4096x64x128.rank)
  reducesTo_S4096x64x128_S_d0_1_2 : S4096x64x128.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S4096x64x128 .f32) (main_arg5 : FVec F S128x256 .f32) (main_arg6 : FVec F S128 .f32) (main_arg7 : FVec F S128x128 .f32) (main_arg8 : FVec F S128 .f32) (main_v13 : IVec S_ 1) (main_v16 : IVec S4096x64x128 1) : IVec S_ 1 :=
  let main_c_5 : IVec S_ 1 := constantI S_ 1 1#1
  let main_v17 : IVec S_ 1 := (fun x v => Host.reduce IntOp.andi x v reducesTo_S4096x64x128_S_d0_1_2 h_S_) main_v16 main_c_5
  let main_v18 : IVec S_ 1 := andi main_v13 main_v17
  let main_v19 : FVec F S4096x64x128 .f32 := Host.absf main_arg4
  let main_cst_6 : FVec F S_ .f32 := constant S_ .f32 0x7F800000#32
  let main_v20 : FVec F S4096x64x128 .f32 := broadcastInDim S4096x64x128 ![] bcast_S_S4096x64x128 main_cst_6
  let main_v21 : IVec S4096x64x128 1 := cmpf .olt main_v19 main_v20
  let main_c_7 : IVec S_ 1 := constantI S_ 1 1#1
  let main_v22 : IVec S_ 1 := (fun x v => Host.reduce IntOp.andi x v reducesTo_S4096x64x128_S_d0_1_2 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S4096x64x128 .f32) (main_arg2 : FVec F S4096x128 .f32) (main_arg3 : FVec F S4096x64x128 .f32) (main_arg4 : FVec F S4096x64x128 .f32) (main_arg5 : FVec F S128x256 .f32) (main_arg6 : FVec F S128 .f32) (main_arg7 : FVec F S128x128 .f32) (main_arg8 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x64x128 .f32 := Host.absf main_arg1
  let main_cst_0 : FVec F S_ .f32 := constant S_ .f32 0x7F800000#32
  let main_v5 : FVec F S4096x64x128 .f32 := broadcastInDim S4096x64x128 ![] bcast_S_S4096x64x128 main_cst_0
  let main_v6 : IVec S4096x64x128 1 := cmpf .olt main_v4 main_v5
  let main_c_1 : IVec S_ 1 := constantI S_ 1 1#1
  let main_v7 : IVec S_ 1 := (fun x v => Host.reduce IntOp.andi x v reducesTo_S4096x64x128_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x64x128 .f32 := Host.absf main_arg3
  let main_cst_4 : FVec F S_ .f32 := constant S_ .f32 0x7F800000#32
  let main_v15 : FVec F S4096x64x128 .f32 := broadcastInDim S4096x64x128 ![] bcast_S_S4096x64x128 main_cst_4
  let main_v16 : IVec S4096x64x128 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S4096x64x128 : Shape := ⟨3, ![4096, 64, 128]⟩
abbrev S128x256 : Shape := ⟨2, ![128, 256]⟩
abbrev S128 : Shape := ⟨1, ![128]⟩
abbrev S128x128 : Shape := ⟨2, ![128, 128]⟩
abbrev S256x128 : Shape := ⟨2, ![256, 128]⟩
abbrev S64x128 : Shape := ⟨2, ![64, 128]⟩
abbrev S64x64x128 : Shape := ⟨3, ![64, 64, 128]⟩
abbrev S64x1x128 : Shape := ⟨3, ![64, 1, 128]⟩
abbrev S64x64x256 : Shape := ⟨3, ![64, 64, 256]⟩
abbrev S4096x256 : Shape := ⟨2, ![4096, 256]⟩
abbrev S1x128 : Shape := ⟨2, ![1, 128]⟩
abbrev S64 : Shape := ⟨1, ![64]⟩
abbrev S64x1 : Shape := ⟨2, ![64, 1]⟩

abbrev nBuf : Space → Nat
  | .hbm => 14
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S4096x64x128, .f32⟩
  | .hbm, ⟨2, _⟩ => ⟨S4096x128, .f32⟩
  | .hbm, ⟨3, _⟩ => ⟨S4096x64x128, .f32⟩
  | .hbm, ⟨4, _⟩ => ⟨S4096x64x128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S256x128, .bf16⟩
  | .hbm, ⟨11, _⟩ => ⟨S128x128, .f32⟩
  | .hbm, ⟨12, _⟩ => ⟨S128x128, .bf16⟩
  | .hbm, ⟨13, _⟩ => ⟨S4096x128, .f32⟩
  | .local _ .vmem, ⟨0, _⟩ => ⟨S64x128, .f32⟩
  | .local _ .vmem, ⟨1, _⟩ => ⟨S64x128, .f32⟩
  | .local _ .vmem, ⟨2, _⟩ => ⟨S64x64x128, .f32⟩
  | .local _ .vmem, ⟨3, _⟩ => ⟨S64x64x128, .f32⟩
  | .local _ .vmem, ⟨4, _⟩ => ⟨S64x128, .f32⟩
  | .local _ .vmem, ⟨5, _⟩ => ⟨S64x128, .f32⟩
  | .local _ .vmem, ⟨6, _⟩ => ⟨S64x64x128, .f32⟩
  | .local _ .vmem, ⟨7, _⟩ => ⟨S64x64x128, .f32⟩
  | .local _ .vmem, ⟨8, _⟩ => ⟨S64x64x128, .f32⟩
  | .local _ .vmem, ⟨9, _⟩ => ⟨S64x64x128, .f32⟩
  | .local _ .vmem, ⟨10, _⟩ => ⟨S256x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S64x128, .f32⟩
  | .local _ .vmem, ⟨15, _⟩ => ⟨S64x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x256_S256x128_1_0 : S128x256.Transposes [1, 0] S256x128
  bitsLt_bf16_f32 : FTy.bits .bf16 < FTy.bits .f32
  transposes_S128x128_S128x128_1_0 : S128x128.Transposes [1, 0] S128x128
  inb_S64x64x128_S64x64x128_0_0_0 : ∀ a, (![0, 0, 0] : Fin 3 → Nat) a + S64x64x128.size a ≤ S64x64x128.size a
  h_S64x64x128 : 0 < S64x64x128.numel
  inb_S64x128_S64x128_0_0 : ∀ a, (![0, 0] : Fin 2 → Nat) a + S64x128.size a ≤ S64x128.size a
  h_S64x128 : 0 < S64x128.numel
  shapeCasts_S64x128_S64x1x128 : S64x128.ShapeCasts S64x1x128
  shapeCasts_S64x1x128_S64x1x128 : S64x1x128.ShapeCasts S64x1x128
  broadcasts_S64x1x128_S64x64x128 : S64x1x128.Broadcasts S64x64x128
  concatenates_S64x64x128_S64x64x128_S64x64x256_d2 : Shape.Concatenates [S64x64x128, S64x64x128] S64x64x256 2
  shapeCasts_S64x64x256_S4096x256 : S64x64x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4096x128_S64x64x128 : S4096x128.ShapeCasts S64x64x128
  reduces_S64x64x128_S64x128 : S64x64x128.Reduces [1] S64x128
  reduces_S64x128_S64 : S64x128.Reduces [1] S64
  shapeCasts_S64_S64x1 : S64.ShapeCasts S64x1
  broadcasts_S64x1_S64x128 : S64x1.Broadcasts S64x128
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x128.size a ≤ S4096x64x128.size a
  hwx0_1 : ∀ i : grid0.Coords, EltTy.bits .f32 = 32 ∨ (Rect.block (s := S4096x64x128) S64x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S4096x128.size a
  hwx0_2 : ∀ i : grid0.Coords, EltTy.bits .f32 = 32 ∨ (Rect.block (s := S4096x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x128.size a ≤ S4096x64x128.size a
  hwx0_3 : ∀ i : grid0.Coords, EltTy.bits .f32 = 32 ∨ (Rect.block (s := S4096x64x128) S64x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x128.size a ≤ S4096x64x128.size a
  hwx0_4 : ∀ i : grid0.Coords, EltTy.bits .f32 = 32 ∨ (Rect.block (s := S4096x64x128) S64x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S4096x128.size a
  hwx0_9 : ∀ i : grid0.Coords, EltTy.bits .f32 = 32 ∨ (Rect.block (s := S4096x128) S64x128.size (cc0_transform_9 i) (hinb0_9 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x64x128 : Shape := ⟨3, ![4096, 64, 128]⟩
abbrev S128x256 : Shape := ⟨2, ![128, 256]⟩
abbrev S128 : Shape := ⟨1, ![128]⟩
abbrev S128x128 : Shape := ⟨2, ![128, 128]⟩
abbrev S4096x1x128 : Shape := ⟨3, ![4096, 1, 128]⟩
abbrev S4096x64x256 : Shape := ⟨3, ![4096, 64, 256]⟩
abbrev S1x1x128 : Shape := ⟨3, ![1, 1, 128]⟩
abbrev S_ : Shape := ⟨0, ![]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x64x128, .f32⟩
  | .hbm, ⟨2, _⟩ => ⟨S4096x128, .f32⟩
  | .hbm, ⟨3, _⟩ => ⟨S4096x64x128, .f32⟩
  | .hbm, ⟨4, _⟩ => ⟨S4096x64x128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S4096x64x128, .f32⟩
  | .hbm, ⟨10, _⟩ => ⟨S4096x64x128, .f32⟩
  | .hbm, ⟨11, _⟩ => ⟨S4096x1x128, .f32⟩
  | .hbm, ⟨12, _⟩ => ⟨S4096x64x128, .f32⟩
  | .hbm, ⟨13, _⟩ => ⟨S4096x64x256, .f32⟩
  | .hbm, ⟨14, _⟩ => ⟨S4096x64x128, .f32⟩
  | .hbm, ⟨15, _⟩ => ⟨S1x1x128, .f32⟩
  | .hbm, ⟨16, _⟩ => ⟨S4096x64x128, .f32⟩
  | .hbm, ⟨17, _⟩ => ⟨S4096x64x128, .f32⟩
  | .hbm, ⟨18, _⟩ => ⟨S_, .f32⟩
  | .hbm, ⟨19, _⟩ => ⟨S4096x64x128, .f32⟩
  | .hbm, ⟨20, _⟩ => ⟨S4096x64x128, .f32⟩
  | .hbm, ⟨21, _⟩ => ⟨S4096x64x128, .f32⟩
  | .hbm, ⟨22, _⟩ => ⟨S1x1x128, .f32⟩
  | .hbm, ⟨23, _⟩ => ⟨S4096x64x128, .f32⟩
  | .hbm, ⟨24, _⟩ => ⟨S4096x64x128, .f32⟩
  | .hbm, ⟨25, _⟩ => ⟨S4096x64x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x128, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x128, .f32⟩
  | .hbm, ⟨44, _⟩ => ⟨S4096x128, .f32⟩
  | .hbm, ⟨45, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S4096x128_S4096x1x128_0_2 : S4096x128.BroadcastsInDim S4096x1x128 (![0, 2] : Fin 2 → Fin S4096x1x128.rank)
  bcast_S4096x1x128_S4096x64x128_0_1_2 : S4096x1x128.BroadcastsInDim S4096x64x128 (![0, 1, 2] : Fin 3 → Fin S4096x64x128.rank)
  concatenates_S4096x64x128_S4096x64x128_S4096x64x256_d2 : Shape.Concatenates [S4096x64x128, S4096x64x128] S4096x64x256 2
  bcast_S128_S1x1x128_2 : S128.BroadcastsInDim S1x1x128 (![2] : Fin 1 → Fin S1x1x128.rank)
  bcast_S1x1x128_S4096x64x128_0_1_2 : S1x1x128.BroadcastsInDim S4096x64x128 (![0, 1, 2] : Fin 3 → Fin S4096x64x128.rank)
  bcast_S_S4096x64x128 : S_.BroadcastsInDim S4096x64x128 (![] : Fin 0 → Fin S4096x64x128.rank)
  reducesTo_S4096x64x128_S4096x128_d1 : S4096x64x128.ReducesTo [1] S4096x128
  h_S_ : 0 < S_.numel
  reducesTo_S4096x128_S4096_d1 : S4096x128.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  dot_S4096x64x256_S128x256_S4096x64x128_2_1_01_0_n_n_wf : DotDims.WF S4096x64x256 S128x256 S4096x64x128 [2] [1] [0, 1] [0] [] []
  dot_S4096x64x128_S128x128_S4096x64x128_2_1_01_0_n_n_wf : DotDims.WF S4096x64x128 S128x128 S4096x64x128 [2] [1] [0, 1] [0] [] []

variable [Facts₀]

def dot_S4096x64x256_S128x256_S4096x64x128_2_1_01_0_n_n : DotDims S4096x64x256 S128x256 S4096x64x128 where
  lhsContracting := [2]
  rhsContracting := [1]
  lhsNonContracting := [0, 1]
  rhsNonContracting := [0]
  lhsBatch := []
  rhsBatch := []
  wf := dot_S4096x64x256_S128x256_S4096x64x128_2_1_01_0_n_n_wf
def dot_S4096x64x128_S128x128_S4096x64x128_2_1_01_0_n_n : DotDims S4096x64x128 S128x128 S4096x64x128 where
  lhsContracting := [2]
  rhsContracting := [1]
  lhsNonContracting := [0, 1]
  rhsNonContracting := [0]
  lhsBatch := []
  rhsBatch := []
  wf := dot_S4096x64x128_S128x128_S4096x64x128_2_1_01_0_n_n_wf

class Facts : Prop extends Facts₀ where

variable [Facts]
-- ==== Proof.Pooling.lean ====
/-
  The function both programs compute, written once over the extended reals and over explicit coordinates.

  For a batch row `b`, a neighbour `n` and a feature `d`:
    * `joined b n k` is the query relation `qr[b, k]` on the first 128 columns and the neighbour relation
      `rr[b, n, k - 128]` on the last 128 (the two relations laid side by side);
    * `hidden b n j = max (∑ k, joined b n k · W1[j, k] + b1[j]) 0` (the first affine layer and its ramp);
    * `score b n d = ∑ j, hidden b n j · W2[d, j] + b2[d]` (the second affine layer);
    * `offset b n d = re[b, n, d] - se[b, n, d] · rr[b, n, d]`;
    * `pooled b d = ∑ n, score b n d · offset b n d` (the neighbours summed out);
    * `pooledNorm b = ∑ d, |pooled b d|` and `queryNorm b = ∑ d, |qe[b, d]|` (row 1-norms, |x| = max x (-x));
    * `result[b, d] = qe[b, d] + pooled b d / (ε + pooledNorm b / queryNorm b · 5/2)`.
  The three float words (zero, ε = f32 1e-9, 5/2) stay as the words they are printed as: the same word stands on
  both sides and is never evaluated. Division is the extended reals' total division `Ideal.div`.
-/
import Idealize.ShloMosaic.PureOps.Ideal
import Idealize.ShloMosaic.PureOps.Ideal.Laws
import Idealize.ShloMosaic.Lib.ValueIdx

noncomputable section

namespace Cert.NeighborPool

open Idealize.ShloMosaic Idealize.ShloMosaic.ValueIdx

/-- Arrays of extended reals of rank one, two and three over literal extents. -/
abbrev T1 (a : Nat) : Type := (⟨1, ![a]⟩ : Shape).Idx → EReal
abbrev T2 (a b : Nat) : Type := (⟨2, ![a, b]⟩ : Shape).Idx → EReal
abbrev T3 (a b c : Nat) : Type := (⟨3, ![a, b, c]⟩ : Shape).Idx → EReal

/-- The three float words of the formula, as the extended reals they denote. -/
abbrev zeroW : EReal := Ideal.ofBits .f32 0x00000000#32
abbrev epsW : EReal := Ideal.ofBits .f32 0x3089705F#32
abbrev scaleW : EReal := Ideal.ofBits .f32 0x40200000#32

section
variable (qe : T2 4096 128) (re : T3 4096 64 128) (qr : T2 4096 128) (rr se : T3 4096 64 128)
  (W1 : T2 128 256) (b1 : T1 128) (W2 : T2 128 128) (b2 : T1 128)

/-- The query relation and the neighbour relation side by side along the feature axis. -/
def joined (b : Fin 4096) (n : Fin 64) (k : Fin 256) : EReal :=
  if h : k.val < 128 then qr (ix2 b ⟨k.val, h⟩) else rr (ix3 b n ⟨k.val - 128, by have := k.isLt; omega⟩)

/-- The first affine layer followed by the ramp. -/
def hidden (b : Fin 4096) (n : Fin 64) (j : Fin 128) : EReal :=
  max ((∑ k : Fin 256, joined qr rr b n k * W1 (ix2 j k)) + b1 (ix1 j)) zeroW

/-- The second affine layer. -/
def score (b : Fin 4096) (n : Fin 64) (d : Fin 128) : EReal :=
  (∑ j : Fin 128, hidden qr rr W1 b1 b n j * W2 (ix2 d j)) + b2 (ix1 d)

/-- What each neighbour contributes before weighting. -/
def offset (b : Fin 4096) (n : Fin 64) (d : Fin 128) : EReal :=
  re (ix3 b n d) - se (ix3 b n d) * rr (ix3 b n d)

/-- The weighted offsets with the neighbours summed out. -/
def pooled (b : Fin 4096) (d : Fin 128) : EReal :=
  ∑ n : Fin 64, score qr rr W1 b1 W2 b2 b n d * offset re rr se b n d

/-- The 1-norm of a pooled row. -/
def pooledNorm (b : Fin 4096) : EReal :=
  ∑ d : Fin 128, max (pooled re qr rr se W1 b1 W2 b2 b d) (-(pooled re qr rr se W1 b1 W2 b2 b d))

/-- The 1-norm of a query row. -/
def queryNorm (b : Fin 4096) : EReal :=
  ∑ d : Fin 128, max (qe (ix2 b d)) (-(qe (ix2 b d)))

/-- The result at explicit coordinates. -/
def resultAt (b : Fin 4096) (d : Fin 128) : EReal :=
  qe (ix2 b d) + Ideal.div (pooled re qr rr se W1 b1 W2 b2 b d)
    (epsW + Ideal.div (pooledNorm re qr rr se W1 b1 W2 b2 b) (queryNorm qe b) * scaleW)

/-- The result array. -/
def result : T2 4096 128 := fun i => resultAt qe re qr rr se W1 b1 W2 b2 (i 0) (i 1)

theorem result_ix2 (b : Fin 4096) (d : Fin 128) :
    result qe re qr rr se W1 b1 W2 b2 (ix2 b d) = resultAt qe re qr rr se W1 b1 W2 b2 b d := rfl

end

end Cert.NeighborPool

end
-- ==== Proof.RefRead.lean ====
/-
  The reference, read at explicit coordinates: each stage of its straight-line program, at the index built from a
  batch row, a neighbour and a feature, is the corresponding stage of the specification. The two-piece
  concatenation is read by cases on the joined coordinate; the two contractions and the three sums are the
  generated readings of those operations, with their composed indices identified with the coordinate-built ones.
-/
import proofs.«179449_j85839216378535_1_alg».proof.Proof.Gen.ReferenceIdeal.Read
import proofs.«179449_j85839216378535_1_alg».proof.Proof.Pooling

noncomputable section

namespace Cert.ReferenceIdeal.RefValue

open Cert.ReferenceIdeal Cert.ReferenceIdeal.Gen Cert.ReferenceIdeal.Read Cert.NeighborPool
open Idealize.ShloMosaic Idealize.ShloMosaic.ValueIdx

variable (x0 : T2 4096 128) (x1 : T3 4096 64 128) (x2 : T2 4096 128) (x3 x4 : T3 4096 64 128)
  (x5 : T2 128 256) (x6 : T1 128) (x7 : T2 128 128) (x8 : T1 128)

/-- The concatenation along the feature axis: the broadcast query relation below column 128, the neighbour
    relation from there on. -/
theorem joined_at (b : Fin 4096) (n : Fin 64) (k : Fin 256) :
    val_main_v4 (F := Ideal) x2 x3 (ix3 b n k) = joined x2 x3 b n k := by
  unfold val_main_v4 joined
  by_cases h : k.val < 128
  · rw [dif_pos h]
    refine (concatenate_pair_apply_left (t := S4096x64x256) (s₁ := S4096x64x128) (s₂ := S4096x64x128) (2 : Fin 3) _ _
      concatenates_S4096x64x128_S4096x64x128_S4096x64x256_d2 (ix3 b n k) rfl (ix3 b n ⟨k.val, h⟩) ?_).trans ?_
    · intro a
      match a with
      | ⟨0, _⟩ => rfl
      | ⟨1, _⟩ => rfl
      | ⟨2, _⟩ => rfl
    · rw [val_main_v3_apply, val_main_v2_apply]
      exact congrArg x2 (funext fun a => Fin.ext (by match a with | ⟨0, _⟩ => rfl | ⟨1, _⟩ => rfl))
  · rw [dif_neg h]
    refine concatenate_pair_apply_right (t := S4096x64x256) (s₁ := S4096x64x128) (s₂ := S4096x64x128) (2 : Fin 3) _ _
      concatenates_S4096x64x128_S4096x64x128_S4096x64x256_d2 (ix3 b n k) rfl rfl
      (ix3 b n ⟨k.val - 128, by have := k.isLt; omega⟩) ?_ ?_
    · intro a ha
      match a, ha with
      | ⟨0, _⟩, _ => rfl
      | ⟨1, _⟩, _ => rfl
      | ⟨2, _⟩, ha => exact absurd rfl ha
    · show (k.val - 128) + 128 = k.val
      omega

/-- The first contraction, its bias and the ramp. -/
theorem hidden_at (b : Fin 4096) (n : Fin 64) (j : Fin 128) :
    val_main_v9 (F := Ideal) x2 x3 x5 x6 (ix3 b n j) = hidden x2 x3 x5 x6 b n j := by
  rw [val_main_v9_apply, val_main_v8_apply, val_main_v5_apply, val_main_v7_apply, val_main_v6_apply,
    val_main_call0_v0_apply, val_main_call0_cst_apply]
  have e1 : ∀ k : Fin 256, lidx_main_v5 (ix3 b n j) k = ix3 b n k := fun k => funext fun a => Fin.ext (by match a with | ⟨0, _⟩ => rfl | ⟨1, _⟩ => rfl | ⟨2, _⟩ => rfl)
  have e2 : ∀ k : Fin 256, ridx_main_v5 (ix3 b n j) k = ix2 j k := fun k => funext
    fun a => Fin.ext (by match a with | ⟨0, _⟩ => rfl | ⟨1, _⟩ => rfl)
  have e3 : idx_main_v6 (idx_main_v7 (ix3 b n j)) = ix1 j := funext
    fun a => Fin.ext (by match a with | ⟨0, _⟩ => rfl)
  simp only [e1, e2, e3, joined_at]
  rfl

/-- The second contraction and its bias. -/
theorem score_at (b : Fin 4096) (n : Fin 64) (d : Fin 128) :
    val_main_v13 (F := Ideal) x2 x3 x5 x6 x7 x8 (ix3 b n d) = score x2 x3 x5 x6 x7 x8 b n d := by
  rw [val_main_v13_apply, val_main_v10_apply, val_main_v12_apply, val_main_v11_apply]
  have e1 : ∀ k : Fin 128, lidx_main_v10 (ix3 b n d) k = ix3 b n k := fun k => funext fun a => Fin.ext (by match a with | ⟨0, _⟩ => rfl | ⟨1, _⟩ => rfl | ⟨2, _⟩ => rfl)
  have e2 : ∀ k : Fin 128, ridx_main_v10 (ix3 b n d) k = ix2 d k := fun k => funext
    fun a => Fin.ext (by match a with | ⟨0, _⟩ => rfl | ⟨1, _⟩ => rfl)
  have e3 : idx_main_v11 (idx_main_v12 (ix3 b n d)) = ix1 d := funext
    fun a => Fin.ext (by match a with | ⟨0, _⟩ => rfl)
  simp only [e1, e2, e3, hidden_at]
  rfl

/-- The neighbour offset. -/
theorem offset_at (b : Fin 4096) (n : Fin 64) (d : Fin 128) :
    val_main_v1 (F := Ideal) x1 x3 x4 (ix3 b n d) = offset x1 x3 x4 b n d := rfl

/-- The sum over the neighbours. -/
theorem pooled_at (b : Fin 4096) (d : Fin 128) :
    val_main_v15 (F := Ideal) x1 x2 x3 x4 x5 x6 x7 x8 (ix2 b d) = pooled x1 x2 x3 x4 x5 x6 x7 x8 b d := by
  rw [val_main_v15_apply, val_main_cst_apply]
  have e1 : ∀ k : Fin 64, idx_main_v15 (ix2 b d) k = ix3 b k d := fun k => funext fun a => Fin.ext (by match a with | ⟨0, _⟩ => rfl | ⟨1, _⟩ => rfl | ⟨2, _⟩ => rfl)
  simp only [e1, val_main_v14_apply, score_at, offset_at]
  show Ideal.ofBits .f32 0x00000000#32 + _ = _
  rw [Ideal.ofBits_zero_f32, zero_add]
  rfl

/-- The 1-norm of the pooled row. -/
theorem pooledNorm_at (b : Fin 4096) :
    val_main_v17 (F := Ideal) x1 x2 x3 x4 x5 x6 x7 x8 (ix1 b) = pooledNorm x1 x2 x3 x4 x5 x6 x7 x8 b := by
  rw [val_main_v17_apply, val_main_cst_0_apply]
  have e1 : ∀ k : Fin 128, idx_main_v17 (ix1 b) k = ix2 b k := fun k => funext
    fun a => Fin.ext (by match a with | ⟨0, _⟩ => rfl | ⟨1, _⟩ => rfl)
  simp only [e1, val_main_v16_apply, pooled_at]
  show Ideal.ofBits .f32 0x00000000#32 + _ = _
  rw [Ideal.ofBits_zero_f32, zero_add]
  rfl

/-- The 1-norm of the query row. -/
theorem queryNorm_at (b : Fin 4096) :
    val_main_v20 (F := Ideal) x0 (ix1 b) = queryNorm x0 b := by
  rw [val_main_v20_apply, val_main_cst_1_apply]
  have e1 : ∀ k : Fin 128, idx_main_v20 (ix1 b) k = ix2 b k := fun k => funext
    fun a => Fin.ext (by match a with | ⟨0, _⟩ => rfl | ⟨1, _⟩ => rfl)
  simp only [e1, val_main_v19_apply]
  show Ideal.ofBits .f32 0x00000000#32 + _ = _
  rw [Ideal.ofBits_zero_f32, zero_add]
  rfl

/-- The last stage at explicit coordinates. -/
theorem result_at (b : Fin 4096) (d : Fin 128) :
    val_main_v29 (F := Ideal) x0 x1 x2 x3 x4 x5 x6 x7 x8 (ix2 b d) = resultAt x0 x1 x2 x3 x4 x5 x6 x7 x8 b d := by
  rw [val_main_v29_apply, val_main_v28_apply, val_main_v27_apply, val_main_v26_apply, val_main_v25_apply,
    val_main_cst_3_apply, val_main_v24_apply, val_main_v23_apply, val_main_cst_2_apply, val_main_v22_apply,
    val_main_v18_apply, val_main_v21_apply]
  have e1 : idx_main_v18 (idx_main_v27 (ix2 b d)) = ix1 b := funext
    fun a => Fin.ext (by match a with | ⟨0, _⟩ => rfl)
  have e2 : idx_main_v21 (idx_main_v27 (ix2 b d)) = ix1 b := funext
    fun a => Fin.ext (by match a with | ⟨0, _⟩ => rfl)
  rw [e1, e2, pooled_at, pooledNorm_at, queryNorm_at]
  rfl

/-- The reference's result array is the specification's. -/
theorem result_eq :
    val_main_v29 (F := Ideal) x0 x1 x2 x3 x4 x5 x6 x7 x8 = result x0 x1 x2 x3 x4 x5 x6 x7 x8 := by
  funext i
  obtain ⟨b, d, rfl⟩ : ∃ (b : Fin 4096) (d : Fin 128), i = ix2 b d := ⟨i 0, i 1, eq_ix2 i⟩
  exact result_at x0 x1 x2 x3 x4 x5 x6 x7 x8 b d

end Cert.ReferenceIdeal.RefValue

end
-- ==== Proof.BlockValue.lean ====
/-
  One grid point's block, read at explicit coordinates. The body flattens its [64, 64, ·] blocks to 4096 rows
  (row 64·p + n is batch row p of the block, neighbour n), runs the two affine layers on the flattened rows, folds
  the rows back and sums the neighbours out. Each layout step is read at an index built from coordinates, each
  product and each sum as a finite sum over a literal index type; the changes of float format are the identity on
  the extended reals. The last theorems state, for blocks that ARE given rows of the nine arrays (hypotheses at
  coordinates, `g p` the array row under block row `p`), that the block's entry is the specification's.
-/
import proofs.«179449_j85839216378535_1_alg».proof.Proof.Gen.KernelIdeal.Value
import proofs.«179449_j85839216378535_1_alg».proof.Proof.Pooling
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Cert.NeighborPool
open Idealize.ShloMosaic Idealize.ShloMosaic.ValueIdx

/-- Row `64 p + n` of the 4096 flattened rows: block row `p`, neighbour `n`. -/
abbrev flatRow (p n : Fin 64) : Fin 4096 := ⟨p.val * 64 + n.val, by have := p.isLt; have := n.isLt; omega⟩

/-! ## The layout steps at an index -/

section Layout
variable {α : Type}

/-- Flattening [64, 64, 256] to [4096, 256] keeps the row-major position. -/
theorem flatten_at (x : S64x64x256.Idx → α) (p n : Fin 64) (k : Fin 256) :
    shapeCast S4096x256 x shapeCasts_S64x64x256_S4096x256 (ix2 (flatRow p n) k) = x (ix3 p n k) :=
  shapeCast_apply _ _ _ _ (by rw [Shape.rowMajor_val_three, Shape.rowMajor_val_two]; rfl)

/-- Folding [4096, 128] back to [64, 64, 128]. -/
theorem unflatten_at (x : S4096x128.Idx → α) (p n : Fin 64) (d : Fin 128) :
    shapeCast S64x64x128 x shapeCasts_S4096x128_S64x64x128 (ix3 p n d) = x (ix2 (flatRow p n) d) :=
  shapeCast_apply _ _ _ _ (by rw [Shape.rowMajor_val_three, Shape.rowMajor_val_two]; rfl)

/-- A [64, 128] block repeated along a new middle axis of 64. -/
theorem spread_at (x : S64x128.Idx → α) (p n : Fin 64) (d : Fin 128) :
    broadcastTo S64x64x128 (shapeCast S64x1x128 (shapeCast S64x1x128 x shapeCasts_S64x128_S64x1x128)
      shapeCasts_S64x1x128_S64x1x128) broadcasts_S64x1x128_S64x64x128 (ix3 p n d) = x (ix2 p d) := by
  rw [shapeCast_self]
  refine (broadcastTo_apply _ _ (ix3 p n d) (ix3 p (0 : Fin 1) d) ?_).trans ?_
  · intro a
    match a with
    | ⟨0, _⟩ => rfl
    | ⟨1, _⟩ => rfl
    | ⟨2, _⟩ => rfl
  · refine shapeCast_apply _ _ _ _ ?_
    rw [Shape.rowMajor_val_two, Shape.rowMajor_val_three]
    show p.val * 128 + d.val = (p.val * 1 + 0) * 128 + d.val
    omega

/-- A [128] vector repeated down the 4096 rows. -/
theorem rowBias_at (x : S128.Idx → α) (r : Fin 4096) (d : Fin 128) :
    broadcastTo S4096x128 (shapeCast S1x128 x shapeCasts_S128_S1x128) broadcasts_S1x128_S4096x128 (ix2 r d) = x (ix1 d) := by
  refine (broadcastTo_apply _ _ (ix2 r d) (ix2 (0 : Fin 1) d) ?_).trans ?_
  · intro a
    match a with
    | ⟨0, _⟩ => rfl
    | ⟨1, _⟩ => rfl
  · refine shapeCast_apply _ _ _ _ ?_
    rw [Shape.rowMajor_val_one, Shape.rowMajor_val_two]
    show d.val = 0 * 128 + d.val
    omega

/-- Two [64, 64, 128] blocks side by side on the last axis: below column 128 the first. -/
theorem sideBySide_left (x y : S64x64x128.Idx → α) (p n : Fin 64) (k : Fin 256) (h : k.val < 128) :
    concatenate S64x64x256 2 [⟨S64x64x128, x⟩, ⟨S64x64x128, y⟩] concatenates_S64x64x128_S64x64x128_S64x64x256_d2 (ix3 p n k)
      = x (ix3 p n ⟨k.val, h⟩) :=
  concatenate_pair_apply_left (t := S64x64x256) (s₁ := S64x64x128) (s₂ := S64x64x128) (2 : Fin 3) _ _ _ (ix3 p n k) rfl
    (ix3 p n ⟨k.val, h⟩) (fun a => by
      match a with
      | ⟨0, _⟩ => rfl
      | ⟨1, _⟩ => rfl
      | ⟨2, _⟩ => rfl)

/-- … and from column 128 on the second, 128 columns back. -/
theorem sideBySide_right (x y : S64x64x128.Idx → α) (p n : Fin 64) (k : Fin 256) (h : ¬ k.val < 128) :
    concatenate S64x64x256 2 [⟨S64x64x128, x⟩, ⟨S64x64x128, y⟩] concatenates_S64x64x128_S64x64x128_S64x64x256_d2 (ix3 p n k)
      = y (ix3 p n ⟨k.val - 128, by have := k.isLt; omega⟩) :=
  concatenate_pair_apply_right (t := S64x64x256) (s₁ := S64x64x128) (s₂ := S64x64x128) (2 : Fin 3) _ _ _ (ix3 p n k) rfl rfl
    (ix3 p n ⟨k.val - 128, by have := k.isLt; omega⟩) (fun a ha => by
      match a, ha with
      | ⟨0, _⟩, _ => rfl
      | ⟨1, _⟩, _ => rfl
      | ⟨2, _⟩, ha => exact absurd rfl ha)
    (by show (k.val - 128) + 128 = k.val; omega)

end Layout

/-! ## The two products and the sums at an index -/

theorem lhsA_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhsA_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhsA_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhsA_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- A row-by-column product into the zero accumulator, at explicit coordinates: the sum over the 256 contracted
    positions of the row's entry times the column's. -/
theorem contract256_at (lhs : FVec Ideal S4096x256 .bf16) (rhs : FVec Ideal S256x128 .bf16) (r : Fin 4096) (j : Fin 128) :
    matmul dot_S4096x256_S256x128_S4096x128_1_0_0_1_n_n none lhs rhs (constant S4096x128 .f32 0x00000000#32) (ix2 r j)
      = ∑ k : Fin 256, lhs (ix2 r k) * rhs (ix2 k j) := by
  simp only [matmul]
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 r j) ((contrEquiv1 dot_S4096x256_S256x128_S4096x128_1_0_0_1_n_n 256 rfl rfl).symm k) = ix2 r k := funext fun a => Fin.ext (by
    match a with
    | ⟨0, _⟩ => exact lhsA_0 _ _
    | ⟨1, _⟩ => exact (lhsA_1 _ _).trans hk)
  have er : dot_S4096x256_S256x128_S4096x128_1_0_0_1_n_n.rhsIdx (ix2 r j) ((contrEquiv1 dot_S4096x256_S256x128_S4096x128_1_0_0_1_n_n 256 rfl rfl).symm k) = ix2 k j := funext fun a => Fin.ext (by
    match a with
    | ⟨0, _⟩ => exact (rhsA_0 _ _).trans hk
    | ⟨1, _⟩ => exact rhsA_1 _ _)
  rw [el, er]

theorem lhsB_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsB_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsB_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsB_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A row-by-column product into the zero accumulator, at explicit coordinates: the sum over the 128 contracted
    positions of the row's entry times the column's. -/
theorem contract128_at (lhs : FVec Ideal S4096x128 .bf16) (rhs : FVec Ideal S128x128 .bf16) (r : Fin 4096) (j : Fin 128) :
    matmul dot_S4096x128_S128x128_S4096x128_1_0_0_1_n_n none lhs rhs (constant S4096x128 .f32 0x00000000#32) (ix2 r j)
      = ∑ k : Fin 128, lhs (ix2 r k) * rhs (ix2 k j) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r j) ((contrEquiv1 dot_S4096x128_S128x128_S4096x128_1_0_0_1_n_n 128 rfl rfl).symm k) = ix2 r k := funext fun a => Fin.ext (by
    match a with
    | ⟨0, _⟩ => exact lhsB_0 _ _
    | ⟨1, _⟩ => exact (lhsB_1 _ _).trans hk)
  have er : dot_S4096x128_S128x128_S4096x128_1_0_0_1_n_n.rhsIdx (ix2 r j) ((contrEquiv1 dot_S4096x128_S128x128_S4096x128_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-- The sum over the middle axis of a [64, 64, 128] block. -/
theorem sumNeighbours_at (x : FVec Ideal S64x64x128 .f32) (p : Fin 64) (d : Fin 128) :
    multiReduction .add [1] S64x128 x 0x00000000#32 reduces_S64x64x128_S64x128 (.inl rfl) rfl (ix2 p d)
      = ∑ n : Fin 64, x (ix3 p n d) := by
  refine (Ideal.multiReduction_add_single x 0x00000000#32 reduces_S64x64x128_S64x128 (.inl rfl) rfl (ix2 p d)).trans ?_
  exact Finset.sum_congr rfl fun n _ => congrArg x (funext fun a => Fin.ext (by match a with | ⟨0, _⟩ => rfl | ⟨1, _⟩ => rfl | ⟨2, _⟩ => rfl))

/-- The sum along a row of a [64, 128] block. -/
theorem sumRow_at (x : FVec Ideal S64x128 .f32) (p : Fin 64) :
    multiReduction .add [1] S64 x 0x00000000#32 reduces_S64x128_S64 (.inl rfl) rfl (ix1 p)
      = ∑ d : Fin 128, x (ix2 p d) := by
  refine (Ideal.multiReduction_add_single x 0x00000000#32 reduces_S64x128_S64 (.inl rfl) rfl (ix1 p)).trans ?_
  exact Finset.sum_congr rfl fun d _ => congrArg x (funext fun a => Fin.ext (by match a with | ⟨0, _⟩ => rfl | ⟨1, _⟩ => rfl))

/-! ## The body's stages, named -/

section Stages
variable (v0 : Vec Ideal S64x64x128 .f32) (v1 : Vec Ideal S64x128 .f32) (v9 : Vec Ideal S256x128 .bf16)
  (v12 : Vec Ideal S128 .f32) (v19 : Vec Ideal S128x128 .bf16) (v22 : Vec Ideal S128 .f32)
  (v27 v28 : Vec Ideal S64x64x128 .f32)

/-- The two relations side by side, on flattened rows. -/
def blkJoined : FVec Ideal S4096x256 .bf16 :=
  shapeCast S4096x256 (concatenate S64x64x256 2
    [⟨S64x64x128, truncf .bf16 (broadcastTo S64x64x128 (shapeCast S64x1x128 (shapeCast S64x1x128 v1 shapeCasts_S64x128_S64x1x128)
        shapeCasts_S64x1x128_S64x1x128) broadcasts_S64x1x128_S64x64x128) bitsLt_bf16_f32⟩,
     ⟨S64x64x128, truncf .bf16 v0 bitsLt_bf16_f32⟩] concatenates_S64x64x128_S64x64x128_S64x64x256_d2) shapeCasts_S64x64x256_S4096x256

/-- The first layer and its ramp, on flattened rows. -/
def blkHidden : FVec Ideal S4096x128 .f32 :=
  maximumf (addf (matmul dot_S4096x256_S256x128_S4096x128_1_0_0_1_n_n none (blkJoined v0 v1) (shapeCast S256x128 v9 shapeCasts_S256x128_S256x128 : FVec Ideal S256x128 .bf16)
      (constant S4096x128 .f32 0x00000000#32))
    (broadcastTo S4096x128 (shapeCast S1x128 v12 shapeCasts_S128_S1x128) broadcasts_S1x128_S4096x128))
    (broadcast S4096x128 (Scalar.ofBits .f32 0x00000000#32))

/-- The second layer, on flattened rows. -/
def blkScore : FVec Ideal S4096x128 .f32 :=
  addf (matmul dot_S4096x128_S128x128_S4096x128_1_0_0_1_n_n none (truncf .bf16 (blkHidden v0 v1 v9 v12) bitsLt_bf16_f32)
      (shapeCast S128x128 v19 shapeCasts_S128x128_S128x128 : FVec Ideal S128x128 .bf16) (constant S4096x128 .f32 0x00000000#32))
    (broadcastTo S4096x128 (shapeCast S1x128 v22 shapeCasts_S128_S1x128) broadcasts_S1x128_S4096x128)

/-- The body's pooled block is the neighbour sum of the folded-back scores times the offsets. -/
theorem pooledBlock_eq :
    k0_pay2 (F := Ideal) v0 v1 v9 v12 v19 v22 v27 v28
      = multiReduction .add [1] S64x128 (mulf (shapeCast S64x64x128 (blkScore v0 v1 v9 v12 v19 v22) shapeCasts_S4096x128_S64x64x128)
          (subf v27 (mulf v28 v0))) 0x00000000#32 reduces_S64x64x128_S64x128 (.inl rfl) rfl := rfl

end Stages

/-! ## A block of given rows computes the specification's entries -/

section Bridge
variable (qe : T2 4096 128) (re : T3 4096 64 128) (qr : T2 4096 128) (rr se : T3 4096 64 128)
  (W1 : T2 128 256) (b1 : T1 128) (W2 : T2 128 128) (b2 : T1 128) (g : Fin 64 → Fin 4096)
variable (v0 : Vec Ideal S64x64x128 .f32) (v1 : Vec Ideal S64x128 .f32) (v9 : Vec Ideal S256x128 .bf16)
  (v12 : Vec Ideal S128 .f32) (v19 : Vec Ideal S128x128 .bf16) (v22 : Vec Ideal S128 .f32)
  (v27 v28 : Vec Ideal S64x64x128 .f32) (v36 : Vec Ideal S64x128 .f32)
variable (h0 : ∀ (p n : Fin 64) (d : Fin 128), v0 (ix3 p n d) = rr (ix3 (g p) n d))
  (h1 : ∀ (p : Fin 64) (d : Fin 128), v1 (ix2 p d) = qr (ix2 (g p) d))
  (h9 : ∀ (k : Fin 256) (j : Fin 128), v9 (ix2 k j) = W1 (ix2 j k))
  (h12 : ∀ j : Fin 128, v12 (ix1 j) = b1 (ix1 j))
  (h19 : ∀ (j d : Fin 128), v19 (ix2 j d) = W2 (ix2 d j))
  (h22 : ∀ d : Fin 128, v22 (ix1 d) = b2 (ix1 d))
  (h27 : ∀ (p n : Fin 64) (d : Fin 128), v27 (ix3 p n d) = re (ix3 (g p) n d))
  (h28 : ∀ (p n : Fin 64) (d : Fin 128), v28 (ix3 p n d) = se (ix3 (g p) n d))
  (h36 : ∀ (p : Fin 64) (d : Fin 128), v36 (ix2 p d) = qe (ix2 (g p) d))

include h0 h1 in
theorem blkJoined_at (p n : Fin 64) (k : Fin 256) :
    blkJoined v0 v1 (ix2 (flatRow p n) k) = joined qr rr (g p) n k := by
  unfold blkJoined NeighborPool.joined
  rw [flatten_at]
  by_cases h : k.val < 128
  · rw [dif_pos h, sideBySide_left _ _ p n k h]
    exact (spread_at v1 p n ⟨k.val, h⟩).trans (h1 p _)
  · rw [dif_neg h, sideBySide_right _ _ p n k h]
    exact h0 p n _

include h0 h1 h9 h12 in
theorem blkHidden_at (p n : Fin 64) (j : Fin 128) :
    blkHidden v0 v1 v9 v12 (ix2 (flatRow p n) j) = hidden qr rr W1 b1 (g p) n j := by
  unfold blkHidden NeighborPool.hidden
  rw [maximumf_apply, addf_apply, contract256_at, rowBias_at, shapeCast_self]
  simp only [blkJoined_at qr rr g v0 v1 h0 h1, h9, h12]
  rfl

include h0 h1 h9 h12 h19 h22 in
theorem blkScore_at (p n : Fin 64) (d : Fin 128) :
    blkScore v0 v1 v9 v12 v19 v22 (ix2 (flatRow p n) d) = score qr rr W1 b1 W2 b2 (g p) n d := by
  unfold blkScore NeighborPool.score
  rw [addf_apply, contract128_at, rowBias_at, shapeCast_self]
  simp only [truncf_apply, blkHidden_at qr rr W1 b1 g v0 v1 v9 v12 h0 h1 h9 h12, h19, h22]

include h0 h1 h9 h12 h19 h22 h27 h28 in
/-- The pooled block at (p, d) is the specification's pooled entry of array row `g p`. -/
theorem pooledBlock_at (p : Fin 64) (d : Fin 128) :
    k0_pay2 (F := Ideal) v0 v1 v9 v12 v19 v22 v27 v28 (ix2 p d) = pooled re qr rr se W1 b1 W2 b2 (g p) d := by
  rw [pooledBlock_eq, sumNeighbours_at]
  unfold NeighborPool.pooled NeighborPool.offset
  refine Finset.sum_congr rfl fun n _ => ?_
  rw [mulf_apply, subf_apply, mulf_apply, unflatten_at,
    blkScore_at qr rr W1 b1 W2 b2 g v0 v1 v9 v12 v19 v22 h0 h1 h9 h12 h19 h22, h27, h28, h0]

include h0 h1 h9 h12 h19 h22 h27 h28 h36 in
/-- The block the body leaves at (p, d) is the specification's result at (g p, d). -/
theorem block_at (p : Fin 64) (d : Fin 128) :
    Value.E9 (F := Ideal) v36 v0 v1 v9 v12 v19 v22 v27 v28 (ix2 p d) = resultAt qe re qr rr se W1 b1 W2 b2 (g p) d := by
  have i0 : Value.ix9_0 (ix2 p d) = ix2 p d := funext fun a => Fin.ext (by match a with | ⟨0, _⟩ => rfl | ⟨1, _⟩ => rfl)
  have i1 : Value.ix9_1 (ix2 p d) = ix2 p d := funext fun a => Fin.ext (by match a with | ⟨0, _⟩ => rfl | ⟨1, _⟩ => rfl)
  have i2 : Value.ix9_2 (ix2 p d) = ix1 p := funext fun a => Fin.ext (by match a with | ⟨0, _⟩ => rfl)
  have i3 : Value.ix9_3 (ix2 p d) = ix1 p := funext fun a => Fin.ext (by match a with | ⟨0, _⟩ => rfl)
  have ea : ∀ d' : Fin 128, absf (k0_pay2 (F := Ideal) v0 v1 v9 v12 v19 v22 v27 v28) (ix2 p d')
      = max (pooled re qr rr se W1 b1 W2 b2 (g p) d') (-(pooled re qr rr se W1 b1 W2 b2 (g p) d')) := fun d' =>
    (congrArg (fun z : EReal => max z (-z))
      (pooledBlock_at re qr rr se W1 b1 W2 b2 g v0 v1 v9 v12 v19 v22 v27 v28 h0 h1 h9 h12 h19 h22 h27 h28 p d'))
  have eb : ∀ d' : Fin 128, absf (F := Ideal) (φ := .f32) v36 (ix2 p d') = max (qe (ix2 (g p) d')) (-(qe (ix2 (g p) d'))) := fun d' =>
    (congrArg (fun z : EReal => max z (-z)) (h36 p d'))
  dsimp only [Value.E9]
  rw [i0, i1, i2, i3, sumRow_at, sumRow_at, h36,
    pooledBlock_at re qr rr se W1 b1 W2 b2 g v0 v1 v9 v12 v19 v22 v27 v28 h0 h1 h9 h12 h19 h22 h27 h28]
  simp only [ea, eb]
  rfl

end Bridge

end Cert.KernelIdeal.BlockValue

end
-- ==== Proof.ArrayValue.lean ====
/-
  From blocks to the whole array. Grid point `t` stages rows `64 t … 64 t + 63` of the five batch-indexed arrays
  and the whole of the four weight arrays; the two weight matrices reach the region transposed by the host (and
  changed of float format, which is the identity on the extended reals), so the staged entry (k, j) is the
  argument's entry (j, k). Hence what point `t` writes back is rows `64 t … 64 t + 63` of the specification of
  the launched arrays; the 64 points' blocks cover the 4096 rows (row `r` lies in block `r / 64`), so the result
  array ends holding the specification.
-/
import proofs.«179449_j85839216378535_1_alg».proof.Proof.BlockValue
import Idealize.ShloMosaic.Lib.StableHlo.Run

noncomputable section

namespace Cert.KernelIdeal.ArrayValue

open Cert.KernelIdeal Cert.KernelIdeal.Gen Cert.KernelIdeal.BlockValue Cert.NeighborPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The launched arrays and the staged blocks, at their literal types -/

abbrev arr0 (c : Dev nD) : T2 4096 128 := m ((c : Thread nD τ).loc main_arg0)
abbrev arr1 (c : Dev nD) : T3 4096 64 128 := m ((c : Thread nD τ).loc main_arg1)
abbrev arr2 (c : Dev nD) : T2 4096 128 := m ((c : Thread nD τ).loc main_arg2)
abbrev arr3 (c : Dev nD) : T3 4096 64 128 := m ((c : Thread nD τ).loc main_arg3)
abbrev arr4 (c : Dev nD) : T3 4096 64 128 := m ((c : Thread nD τ).loc main_arg4)
abbrev arr5 (c : Dev nD) : T2 128 256 := m ((c : Thread nD τ).loc main_arg5)
abbrev arr6 (c : Dev nD) : T1 128 := m ((c : Thread nD τ).loc main_arg6)
abbrev arr7 (c : Dev nD) : T2 128 128 := m ((c : Thread nD τ).loc main_arg7)
abbrev arr8 (c : Dev nD) : T1 128 := m ((c : Thread nD τ).loc main_arg8)

/-- The specification of the launched arrays. -/
abbrev spec (c : Dev nD) : T2 4096 128 :=
  result (arr0 m c) (arr1 m c) (arr2 m c) (arr3 m c) (arr4 m c) (arr5 m c) (arr6 m c) (arr7 m c) (arr8 m c)

abbrev blk0 (c : Dev nD) (t : Fin cfg0.N) : Vec Ideal S64x128 .f32 := iblk m c 0 t
abbrev blk1 (c : Dev nD) (t : Fin cfg0.N) : Vec Ideal S64x64x128 .f32 := iblk m c 1 t
abbrev blk2 (c : Dev nD) (t : Fin cfg0.N) : Vec Ideal S64x128 .f32 := iblk m c 2 t
abbrev blk3 (c : Dev nD) (t : Fin cfg0.N) : Vec Ideal S64x64x128 .f32 := iblk m c 3 t
abbrev blk4 (c : Dev nD) (t : Fin cfg0.N) : Vec Ideal S64x64x128 .f32 := iblk m c 4 t
abbrev blk5 (c : Dev nD) (t : Fin cfg0.N) : Vec Ideal S256x128 .bf16 := iblk m c 5 t
abbrev blk6 (c : Dev nD) (t : Fin cfg0.N) : Vec Ideal S128 .f32 := iblk m c 6 t
abbrev blk7 (c : Dev nD) (t : Fin cfg0.N) : Vec Ideal S128x128 .bf16 := iblk m c 7 t
abbrev blk8 (c : Dev nD) (t : Fin cfg0.N) : Vec Ideal S128 .f32 := iblk m c 8 t

/-! ## Which rows a point stages -/

/-- The printed index maps, decided over the 64 points: the batch-indexed windows and the output sit at block
    `t` of their first axis, every other block index is zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Array row `64 t + p`: row `p` of point `t`'s block. -/
abbrev rowOf (t : Fin cfg0.N) (p : Fin 64) : Fin 4096 :=
  ⟨t.val * 64 + p.val, by have hN : grid0.N = 64 := N_0; have ht : t.val < grid0.N := t.isLt; have := p.isLt; omega⟩

/-! ## Each staged block read at coordinates -/

theorem read_query (c : Dev nD) (t : Fin cfg0.N) (p : Fin 64) (d : Fin 128) :
    blk0 m c t (ix2 p d) = arr0 m c (ix2 (rowOf t p) d) := by
  have hf := idx_facts t
  show V m c main_arg0 (((cfg0.win 0).blk t).view.emb (ix2 p d)) = _
  rw [V_main_arg0]
  exact congrArg (m ((c : Thread nD τ).loc main_arg0)) (funext fun a => Fin.ext (by
    match a with
    | ⟨0, _⟩ => show win0_0.index t (0 : Fin 2) * 64 + 1 * p.val = t.val * 64 + p.val; omega
    | ⟨1, _⟩ => show win0_0.index t (1 : Fin 2) * 128 + 1 * d.val = d.val; omega))

theorem read_refer (c : Dev nD) (t : Fin cfg0.N) (p n : Fin 64) (d : Fin 128) :
    blk1 m c t (ix3 p n d) = arr1 m c (ix3 (rowOf t p) n d) := by
  have hf := idx_facts t
  show V m c main_arg1 (((cfg0.win 1).blk t).view.emb (ix3 p n d)) = _
  rw [V_main_arg1]
  exact congrArg (m ((c : Thread nD τ).loc main_arg1)) (funext fun a => Fin.ext (by
    match a with
    | ⟨0, _⟩ => show win0_1.index t (0 : Fin 3) * 64 + 1 * p.val = t.val * 64 + p.val; omega
    | ⟨1, _⟩ => show win0_1.index t (1 : Fin 3) * 64 + 1 * n.val = n.val; omega
    | ⟨2, _⟩ => show win0_1.index t (2 : Fin 3) * 128 + 1 * d.val = d.val; omega))

theorem read_queryRel (c : Dev nD) (t : Fin cfg0.N) (p : Fin 64) (d : Fin 128) :
    blk2 m c t (ix2 p d) = arr2 m c (ix2 (rowOf t p) d) := by
  have hf := idx_facts t
  show V m c main_arg2 (((cfg0.win 2).blk t).view.emb (ix2 p d)) = _
  rw [V_main_arg2]
  exact congrArg (m ((c : Thread nD τ).loc main_arg2)) (funext fun a => Fin.ext (by
    match a with
    | ⟨0, _⟩ => show win0_2.index t (0 : Fin 2) * 64 + 1 * p.val = t.val * 64 + p.val; omega
    | ⟨1, _⟩ => show win0_2.index t (1 : Fin 2) * 128 + 1 * d.val = d.val; omega))

theorem read_referRel (c : Dev nD) (t : Fin cfg0.N) (p n : Fin 64) (d : Fin 128) :
    blk3 m c t (ix3 p n d) = arr3 m c (ix3 (rowOf t p) n d) := by
  have hf := idx_facts t
  show V m c main_arg3 (((cfg0.win 3).blk t).view.emb (ix3 p n d)) = _
  rw [V_main_arg3]
  exact congrArg (m ((c : Thread nD τ).loc main_arg3)) (funext fun a => Fin.ext (by
    match a with
    | ⟨0, _⟩ => show win0_3.index t (0 : Fin 3) * 64 + 1 * p.val = t.val * 64 + p.val; omega
    | ⟨1, _⟩ => show win0_3.index t (1 : Fin 3) * 64 + 1 * n.val = n.val; omega
    | ⟨2, _⟩ => show win0_3.index t (2 : Fin 3) * 128 + 1 * d.val = d.val; omega))

theorem read_start (c : Dev nD) (t : Fin cfg0.N) (p n : Fin 64) (d : Fin 128) :
    blk4 m c t (ix3 p n d) = arr4 m c (ix3 (rowOf t p) n d) := by
  have hf := idx_facts t
  show V m c main_arg4 (((cfg0.win 4).blk t).view.emb (ix3 p n d)) = _
  rw [V_main_arg4]
  exact congrArg (m ((c : Thread nD τ).loc main_arg4)) (funext fun a => Fin.ext (by
    match a with
    | ⟨0, _⟩ => show win0_4.index t (0 : Fin 3) * 64 + 1 * p.val = t.val * 64 + p.val; omega
    | ⟨1, _⟩ => show win0_4.index t (1 : Fin 3) * 64 + 1 * n.val = n.val; omega
    | ⟨2, _⟩ => show win0_4.index t (2 : Fin 3) * 128 + 1 * d.val = d.val; omega))

theorem read_weight1 (c : Dev nD) (t : Fin cfg0.N) (k : Fin 256) (j : Fin 128) :
    blk5 m c t (ix2 k j) = arr5 m c (ix2 j k) := by
  have hf := idx_facts t
  have e : (V m c main_v1 : S256x128.Idx → EReal)
      = truncf (F := Ideal) (φ := .f32) .bf16 (transpose S256x128 [1, 0] (arr5 m c) transposes_S128x256_S256x128_1_0) bitsLt_bf16_f32 := by
    dsimp only [Gen.V, Gen.hostOps0]; after_results
  have hi : ((cfg0.win 5).blk t).view.emb (ix2 k j) = (ix2 k j : S256x128.Idx) := funext fun a => Fin.ext (by
    match a with
    | ⟨0, _⟩ => show win0_5.index t (0 : Fin 2) * 256 + 1 * k.val = k.val; omega
    | ⟨1, _⟩ => show win0_5.index t (1 : Fin 2) * 128 + 1 * j.val = j.val; omega)
  show V m c main_v1 (((cfg0.win 5).blk t).view.emb (ix2 k j)) = _
  rw [hi, e]
  exact transpose_apply [1, 0] (m ((c : Thread nD τ).loc main_arg5)) transposes_S128x256_S256x128_1_0 (ix2 k j) (ix2 j k) (fun b => by
    match b with
    | ⟨0, _⟩ => rfl
    | ⟨1, _⟩ => rfl)

theorem read_bias1 (c : Dev nD) (t : Fin cfg0.N) (j : Fin 128) :
    blk6 m c t (ix1 j) = arr6 m c (ix1 j) := by
  have hf := idx_facts t
  show V m c main_arg6 (((cfg0.win 6).blk t).view.emb (ix1 j)) = _
  rw [V_main_arg6]
  exact congrArg (m ((c : Thread nD τ).loc main_arg6)) (funext fun a => Fin.ext (by
    match a with
    | ⟨0, _⟩ => show win0_6.index t (0 : Fin 1) * 128 + 1 * j.val = j.val; omega))

theorem read_weight2 (c : Dev nD) (t : Fin cfg0.N) (k : Fin 128) (j : Fin 128) :
    blk7 m c t (ix2 k j) = arr7 m c (ix2 j k) := by
  have hf := idx_facts t
  have e : (V m c main_v3 : S128x128.Idx → EReal)
      = truncf (F := Ideal) (φ := .f32) .bf16 (transpose S128x128 [1, 0] (arr7 m c) transposes_S128x128_S128x128_1_0) bitsLt_bf16_f32 := by
    dsimp only [Gen.V, Gen.hostOps0]; after_results
  have hi : ((cfg0.win 7).blk t).view.emb (ix2 k j) = (ix2 k j : S128x128.Idx) := funext fun a => Fin.ext (by
    match a with
    | ⟨0, _⟩ => show win0_7.index t (0 : Fin 2) * 128 + 1 * k.val = k.val; omega
    | ⟨1, _⟩ => show win0_7.index t (1 : Fin 2) * 128 + 1 * j.val = j.val; omega)
  show V m c main_v3 (((cfg0.win 7).blk t).view.emb (ix2 k j)) = _
  rw [hi, e]
  exact transpose_apply [1, 0] (m ((c : Thread nD τ).loc main_arg7)) transposes_S128x128_S128x128_1_0 (ix2 k j) (ix2 j k) (fun b => by
    match b with
    | ⟨0, _⟩ => rfl
    | ⟨1, _⟩ => rfl)

theorem read_bias2 (c : Dev nD) (t : Fin cfg0.N) (j : Fin 128) :
    blk8 m c t (ix1 j) = arr8 m c (ix1 j) := by
  have hf := idx_facts t
  show V m c main_arg8 (((cfg0.win 8).blk t).view.emb (ix1 j)) = _
  rw [V_main_arg8]
  exact congrArg (m ((c : Thread nD τ).loc main_arg8)) (funext fun a => Fin.ext (by
    match a with
    | ⟨0, _⟩ => show win0_8.index t (0 : Fin 1) * 128 + 1 * j.val = j.val; omega))

/-! ## What a point writes back, the cover, the array -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` writes back rows `64 t … 64 t + 63` of the specification. -/
theorem flushed_eq (c : Dev nD) (t : Fin cfg0.N) :
    (dats m 0 c).flushed 9 t = ((cfg0.win 9).blk t).view.read (Elt Ideal) (spec m c) := by
  have hf := idx_facts t
  rw [Value.flushed9]
  unfold out0_9
  simp only [View.ld_unit_zero (S := S64x64x128) hz3, View.ld_unit_zero (S := S64x128) hz2,
    View.ld_unit_zero (S := S256x128) hz2, View.ld_unit_zero (S := S128) hz1, View.ld_unit_zero (S := S128x128) hz2]
  funext y
  obtain ⟨p, d, rfl⟩ : ∃ (p : Fin 64) (d : Fin 128), y = ix2 p d := ⟨y 0, y 1, eq_ix2 y⟩
  show View.canon ([⟨r0_1, k0_pay1 (F := Ideal) (k0_pay2 (F := Ideal) (blk3 m c t) (blk2 m c t) (blk5 m c t) (blk6 m c t) (blk7 m c t) (blk8 m c t) (blk1 m c t) (blk4 m c t))
      (k0_pay3 (F := Ideal) (blk3 m c t) (blk2 m c t) (blk5 m c t) (blk6 m c t) (blk7 m c t) (blk8 m c t) (blk1 m c t) (blk4 m c t)) (blk0 m c t)⟩] : List (View.Piece (Elt Ideal) S64x128 .f32)) (ix2 p d)
    = spec m c (((cfg0.win 9).blk t).view.emb (ix2 p d))
  refine (Value.canon9_eq (F := Ideal) (blk0 m c t) (blk3 m c t) (blk2 m c t) (blk5 m c t) (blk6 m c t) (blk7 m c t) (blk8 m c t)
    (blk1 m c t) (blk4 m c t) (ix2 p d)).trans ?_
  refine (block_at (arr0 m c) (arr1 m c) (arr2 m c) (arr3 m c) (arr4 m c) (arr5 m c) (arr6 m c) (arr7 m c) (arr8 m c) (rowOf t)
    (blk3 m c t) (blk2 m c t) (blk5 m c t) (blk6 m c t) (blk7 m c t) (blk8 m c t) (blk1 m c t) (blk4 m c t) (blk0 m c t)
    (read_referRel m c t) (read_queryRel m c t) (read_weight1 m c t) (read_bias1 m c t) (read_weight2 m c t) (read_bias2 m c t)
    (read_refer m c t) (read_start m c t) (read_query m c t) p d).trans ?_
  have hi : ((cfg0.win 9).blk t).view.emb (ix2 p d) = (ix2 (rowOf t p) d : S4096x128.Idx) := funext fun a => Fin.ext (by
    match a with
    | ⟨0, _⟩ => show win0_9.index t (0 : Fin 2) * 64 + 1 * p.val = t.val * 64 + p.val; omega
    | ⟨1, _⟩ => show win0_9.index t (1 : Fin 2) * 128 + 1 * d.val = d.val; omega)
  rw [hi]
  rfl

/-- An index of the array is in point `t`'s block iff each coordinate is in the block's range on its axis. -/
theorem mem_blk (t : Fin cfg0.N) (i : S4096x128.Idx) :
    i ∈ ((cfg0.win 9).blk t).view.set ↔ ∀ a : Fin 2, win0_9.index t a * S64x128.size a ≤ (i a).val ∧ (i a).val < win0_9.index t a * S64x128.size a + S64x128.size a := by
  show i ∈ ((View.whole main_v4).slice (win0_9.rect t)).set ↔ _
  rw [View.set_slice_whole, Rect.mem_set_unit]
  exact Iff.rfl

/-- Every row lies in some point's block: row `r` in block `r / 64`. -/
theorem cover (i : S4096x128.Idx) :
    ∃ t : Fin cfg0.N, (cfg0.win 9).flush t = true ∧ i ∈ ((cfg0.win 9).blk t).view.set := by
  have hN : grid0.N = 64 := N_0
  have hi0 : (i 0).val < 4096 := (i 0).isLt
  have hi1 : (i 1).val < 128 := (i 1).isLt
  let t : Fin cfg0.N := ⟨(i 0).val / 64, by show (i 0).val / 64 < grid0.N; omega⟩
  obtain ⟨-, -, -, -, -, -, -, -, -, -, -, -, -, -, -, -, -, -, -, q0, q1⟩ := idx_facts t
  have ht : t.val = (i 0).val / 64 := rfl
  refine ⟨t, flush0_9 t, ?_⟩
  rw [mem_blk]
  intro a
  match a with
  | ⟨0, _⟩ => show win0_9.index t (0 : Fin 2) * 64 ≤ (i 0).val ∧ (i 0).val < win0_9.index t (0 : Fin 2) * 64 + 64; omega
  | ⟨1, _⟩ => show win0_9.index t (1 : Fin 2) * 128 ≤ (i 1).val ∧ (i 1).val < win0_9.index t (1 : Fin 2) * 128 + 128; omega

/-- The result array after the run is the specification of the launched arrays. -/
theorem final (c : Dev nD) : (dats m 0 c).arrAt 9 cfg0.N = spec m c :=
  (dats m 0 c).arrAt_eq_of_cover 9 (spec m c) (fun t _ => flushed_eq m c t) cover

/-- The kernel's run: the result array at the specification, the nine arguments unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.ArrayValue

end
-- ==== Proof.lean ====
/-
  Neighbour-attention pooling, certified equal to its jnp reference over the extended reals.

  For each batch row b (4096 of them), each of its 64 neighbours n and each of 128 features d, both programs
  form the query relation and the neighbour relation side by side (256 columns), put the row through two affine
  layers with a ramp between them to get a score, multiply the score by the offset
  `refer[b, n, d] - start[b, n, d] · referRel[b, n, d]`, sum the neighbours out, and return
  `query[b, d] + pooled[b, d] / (ε + ‖pooled[b, ·]‖₁ / ‖query[b, ·]‖₁ · 5/2)`  (Proof/Pooling.lean states this once).

  The kernel walks the batch in 64 blocks of 64 rows, flattens each block's 64 × 64 (row, neighbour) pairs into 4096
  rows for its two matrix products against host-transposed weights, and folds them back before summing the
  neighbours; the reference contracts the last axis of rank-3 arrays against the untransposed weights. At the
  extended reals the changes of float format are the identity, a matrix product into a zero accumulator and a
  `dot_general` are the same finite sum of products, and a lane sum and a host sum from zero are the same finite
  sum, so the two sides are one formula term by term — no law that needs finiteness is used, and the
  precondition is never opened. Proof/RefRead.lean reads the reference down to the specification,
  Proof/BlockValue.lean one block of the kernel, Proof/ArrayValue.lean the blocks into the array.
  The idealization rewrote nothing, so the preservation claim is the trivial one.
-/
import proofs.«179449_j85839216378535_1_alg».proof.Defs
import proofs.«179449_j85839216378535_1_alg».proof.Proof.Gen.Kernel
import proofs.«179449_j85839216378535_1_alg».proof.Proof.Gen.Kernel.Skeleton
import proofs.«179449_j85839216378535_1_alg».proof.Proof.Gen.Kernel.Launch
import proofs.«179449_j85839216378535_1_alg».proof.Proof.Gen.Kernel.Points
import proofs.«179449_j85839216378535_1_alg».proof.Proof.Gen.Kernel.Frame
import proofs.«179449_j85839216378535_1_alg».proof.Proof.Gen.KernelIdeal
import proofs.«179449_j85839216378535_1_alg».proof.Proof.Gen.KernelIdeal.Skeleton
import proofs.«179449_j85839216378535_1_alg».proof.Proof.Gen.KernelIdeal.Launch
import proofs.«179449_j85839216378535_1_alg».proof.Proof.Gen.KernelIdeal.Points
import proofs.«179449_j85839216378535_1_alg».proof.Proof.Gen.KernelIdeal.Frame
import proofs.«179449_j85839216378535_1_alg».proof.Proof.Gen.ReferenceIdeal
import proofs.«179449_j85839216378535_1_alg».proof.Proof.Gen.Pre_finite_inputs
import proofs.«179449_j85839216378535_1_alg».proof.Proof.Gen.KernelIdeal.Value
import proofs.«179449_j85839216378535_1_alg».proof.Proof.Gen.ReferenceIdeal.Run
import proofs.«179449_j85839216378535_1_alg».proof.Proof.Gen.ReferenceIdeal.Read
import proofs.«179449_j85839216378535_1_alg».proof.Proof.RefRead
import proofs.«179449_j85839216378535_1_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the specification of the launched arrays, which agree. -/
theorem algebraic : Cert.algebraic_KernelIdeal_ReferenceIdeal := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v29_eq, a0, a1, a2, a3, a4, a5, a6, a7, a8]
  exact Cert.ReferenceIdeal.RefValue.result_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
